-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3072x1024 : Shape := ⟨2, ![3072, 1024]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072 .f32) (main_arg5 : FVec F S3072 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S3072x1024 .f32) (main_arg3 : FVec F S3072x1024 .f32) (main_arg4 : FVec F S3072 .f32) (main_arg5 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_v13 main_v16
-- ==== Kernel.lean ====
abbrev S16384x1024 : Shape := ⟨2, ![16384, 1024]⟩
abbrev S3072x1024 : Shape := ⟨2, ![3072, 1024]⟩
abbrev S3072 : Shape := ⟨1, ![3072]⟩
abbrev S2048x1024 : Shape := ⟨2, ![2048, 1024]⟩
abbrev S1024x2048 : Shape := ⟨2, ![1024, 2048]⟩
abbrev S1024x1024 : Shape := ⟨2, ![1024, 1024]⟩
abbrev S2048 : Shape := ⟨1, ![2048]⟩
abbrev S1x2048 : Shape := ⟨2, ![1, 2048]⟩
abbrev S1024 : Shape := ⟨1, ![1024]⟩
abbrev S1x1024 : Shape := ⟨2, ![1, 1024]⟩
abbrev S256x1024 : Shape := ⟨2, ![256, 1024]⟩
abbrev S256x2048 : Shape := ⟨2, ![256, 2048]⟩

abbrev nBuf : Space → Nat
  | .hbm => 25
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S3072x1024, .bf16⟩
  | .hbm, ⟨7, _⟩ => ⟨S3072x1024, .bf16⟩
  | .hbm, ⟨8, _⟩ => ⟨S2048x1024, .bf16⟩
  | .hbm, ⟨9, _⟩ => ⟨S1024x2048, .bf16⟩
  | .hbm, ⟨10, _⟩ => ⟨S2048x1024, .bf16⟩
  | .hbm, ⟨11, _⟩ => ⟨S1024x2048, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S1x2048, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1x2048, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  slices_S3072x1024_S2048x1024_0_0 : S3072x1024.Slices ![0, 0] S2048x1024
  transposes_S2048x1024_S1024x2048_1_0 : S2048x1024.Transposes [1, 0] S1024x2048
  slices_S3072x1024_S1024x1024_2048_0 : S3072x1024.Slices ![2048, 0] S1024x1024
  transposes_S1024x1024_S1024x1024_1_0 : S1024x1024.Transposes [1, 0] S1024x1024
  slices_S3072_S2048_0 : S3072.Slices ![0] S2048
  shapeCasts_S2048_S1x2048 : S2048.ShapeCasts S1x2048
  slices_S3072_S1024_2048 : S3072.Slices ![2048] S1024
  shapeCasts_S1024_S1x1024 : S1024.ShapeCasts S1x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S256x1024_0_0 : ∀ a, (![0, 0] : Fin 2 → Nat) a + S256x1024.size a ≤ S1024x1024.size a
  h_S256x1024 : 0 < S256x1024.numel
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  broadcasts_S1x1024_S256x1024 : S1x1024.Broadcasts S256x1024
  inb_S1024x1024_S256x1024_256_0 : ∀ a, (![256, 0] : Fin 2 → Nat) a + S256x1024.size a ≤ S1024x1024.size a
  inb_S1024x1024_S256x1024_512_0 : ∀ a, (![512, 0] : Fin 2 → Nat) a + S256x1024.size a ≤ S1024x1024.size a
  inb_S1024x1024_S256x1024_768_0 : ∀ a, (![768, 0] : Fin 2 → Nat) a + S256x1024.size a ≤ S1024x1024.size a
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S16384x1024.size a
  hwx0_9 : ∀ i : grid0.Coords, EltTy.bits .f32 = 32 ∨ (Rect.block (s := S16384x1024) S1024x1024.size (cc0_transform_9 i) (hinb0_9 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S3072x1024 : Shape := ⟨2, ![3072, 1024]⟩
abbrev S3072 : Shape := ⟨1, ![3072]⟩
abbrev S1024x3072 : Shape := ⟨2, ![1024, 3072]⟩
abbrev S16384x3072 : Shape := ⟨2, ![16384, 3072]⟩
abbrev S1x3072 : Shape := ⟨2, ![1, 3072]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S1024x3072, .f32⟩
  | .hbm, ⟨7, _⟩ => ⟨S16384x3072, .f32⟩
  | .hbm, ⟨8, _⟩ => ⟨S1x3072, .f32⟩
  | .hbm, ⟨9, _⟩ => ⟨S16384x3072, .f32⟩
  | .hbm, ⟨10, _⟩ => ⟨S16384x3072, .f32⟩
  | .hbm, ⟨11, _⟩ => ⟨S1024x3072, .f32⟩
  | .hbm, ⟨12, _⟩ => ⟨S16384x3072, .f32⟩
  | .hbm, ⟨13, _⟩ => ⟨S1x3072, .f32⟩
  | .hbm, ⟨14, _⟩ => ⟨S16384x3072, .f32⟩
  | .hbm, ⟨15, _⟩ => ⟨S16384x3072, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  dot_S16384x1024_S1024x3072_S16384x3072_1_0_0_1_n_n_wf : DotDims.WF S16384x1024 S1024x3072 S16384x3072 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.GruSpec.lean ====
/-
  The mathematics of one GRU step, over the extended reals, with no program in sight.

  For batch row `i` and hidden unit `j` the cell computes, from the inputs `x`, the previous state `h`, the two
  stacked weight matrices `wi`, `wh` (three gate blocks of 1024 rows each: reset, update, candidate) and the two
  stacked biases `bi`, `bh`:
      r = σ(a_r),  z = σ(a_z),  n = tanh(a_n + r · g_n),   h' = (1 − z) · n + z · h[i, j]
  where a_r, a_z are the summed reset and update pre-activations and a_n, g_n the input and hidden parts of the
  candidate's. `G` groups a_r (and a_z) as (x·wi + h·wh) + (bi + bh); `G'` groups them as (x·wi + bi) + (h·wh + bh).
  The two groupings agree on every extended real, infinities included, because addition there is a commutative
  monoid (`G_eq_G'`): no finiteness of the inputs is used.
-/
import Idealize.ShloMosaic.PureOps.Ideal
import Idealize.ShloMosaic.PureOps.Ideal.Laws
import Idealize.ShloMosaic.Lib.ValueIdx
import Idealize.ShloMosaic.Lib.IdealHost

noncomputable section

namespace Cert.Gru

open Idealize.ShloMosaic Idealize.ShloMosaic.ValueIdx

/-- Batch by features: the shape of `x`, of `h` and of the result. -/
abbrev SB : Shape := ⟨2, ![16384, 1024]⟩
/-- Three stacked gate blocks by features: the shape of each weight matrix. -/
abbrev SW : Shape := ⟨2, ![3072, 1024]⟩
/-- Three stacked gate blocks: the shape of each bias. -/
abbrev Sb : Shape := ⟨1, ![3072]⟩

/-- Row `o + j` of a stacked matrix: hidden unit `j` of the gate block that starts at row `o`. -/
abbrev gateRow (o : Nat) (ho : o + 1024 ≤ 3072) (j : Fin 1024) : Fin 3072 := ⟨o + j.val, by have := j.isLt; omega⟩

/-- The inner product of batch row `i` of `a` with row `r` of the weight matrix `w`. -/
def dotRow (a : SB.Idx → EReal) (w : SW.Idx → EReal) (i : Fin 16384) (r : Fin 3072) : EReal :=
  ∑ k : Fin 1024, a (ix2 i k) * w (ix2 r k)

/-- One hidden unit's new state from its four pre-activation parts and its old state. -/
def unit (ar az an gn hp : EReal) : EReal :=
  (Ideal.ofBits .f32 0x3F800000#32 - Ideal.logistic az) * Ideal.tanh (an + Ideal.logistic ar * gn) + Ideal.logistic az * hp

/-- The GRU step with the reset and update pre-activations grouped as (x·wi + h·wh) + (bi + bh). -/
def G (x h : SB.Idx → EReal) (wi wh : SW.Idx → EReal) (bi bh : Sb.Idx → EReal) : SB.Idx → EReal := fun i =>
  unit
    ((dotRow x wi (i 0) (gateRow 0 (by omega) (i 1)) + dotRow h wh (i 0) (gateRow 0 (by omega) (i 1)))
      + (bi (ix1 (gateRow 0 (by omega) (i 1))) + bh (ix1 (gateRow 0 (by omega) (i 1)))))
    ((dotRow x wi (i 0) (gateRow 1024 (by omega) (i 1)) + dotRow h wh (i 0) (gateRow 1024 (by omega) (i 1)))
      + (bi (ix1 (gateRow 1024 (by omega) (i 1))) + bh (ix1 (gateRow 1024 (by omega) (i 1)))))
    (dotRow x wi (i 0) (gateRow 2048 (by omega) (i 1)) + bi (ix1 (gateRow 2048 (by omega) (i 1))))
    (dotRow h wh (i 0) (gateRow 2048 (by omega) (i 1)) + bh (ix1 (gateRow 2048 (by omega) (i 1))))
    (h i)

/-- The same step with those pre-activations grouped as (x·wi + bi) + (h·wh + bh). -/
def G' (x h : SB.Idx → EReal) (wi wh : SW.Idx → EReal) (bi bh : Sb.Idx → EReal) : SB.Idx → EReal := fun i =>
  unit
    ((dotRow x wi (i 0) (gateRow 0 (by omega) (i 1)) + bi (ix1 (gateRow 0 (by omega) (i 1))))
      + (dotRow h wh (i 0) (gateRow 0 (by omega) (i 1)) + bh (ix1 (gateRow 0 (by omega) (i 1)))))
    ((dotRow x wi (i 0) (gateRow 1024 (by omega) (i 1)) + bi (ix1 (gateRow 1024 (by omega) (i 1))))
      + (dotRow h wh (i 0) (gateRow 1024 (by omega) (i 1)) + bh (ix1 (gateRow 1024 (by omega) (i 1)))))
    (dotRow x wi (i 0) (gateRow 2048 (by omega) (i 1)) + bi (ix1 (gateRow 2048 (by omega) (i 1))))
    (dotRow h wh (i 0) (gateRow 2048 (by omega) (i 1)) + bh (ix1 (gateRow 2048 (by omega) (i 1))))
    (h i)

/-- The two groupings of the four summands are one extended real: (a + b) + (c + d) = (a + c) + (b + d). -/
theorem G_eq_G' (x h : SB.Idx → EReal) (wi wh : SW.Idx → EReal) (bi bh : Sb.Idx → EReal) :
    G x h wi wh bi bh = G' x h wi wh bi bh := by
  funext i
  unfold G G'
  rw [add_add_add_comm (dotRow x wi (i 0) (gateRow 0 (by omega) (i 1))),
    add_add_add_comm (dotRow x wi (i 0) (gateRow 1024 (by omega) (i 1)))]

/-- The logistic function as jax spells it on the host, 1 / (1 + e^(−a)) with the one a float literal, is the
    logistic function. -/
theorem logistic_spelt (a : EReal) :
    Ideal.div (Ideal.ofBits .f32 0x3F800000#32) (Ideal.ofBits .f32 0x3F800000#32 + Ideal.exp (-a)) = Ideal.logistic a := by
  rw [Ideal.ofBits_one_f32]; rfl

end Cert.Gru

end
-- ==== Proof.Tile.lean ====
/-
  One sub-tile of the kernel's body: 256 batch rows against the whole (transposed, gate-split) weights.

  The body cuts its 1024-row block into four sub-tiles of 256 rows and runs the same chain on each: two products
  into the 2048 reset and update columns, summed with the pre-summed bias row; two products into the 1024 candidate
  columns, each with its own bias row; the two logistic gates, the candidate's tanh and the blend with the old state.
  `tile` is that chain as one function of the loaded values. The four stores' payloads are all `tile` of their own
  rows (the three `*_eq_tile` lemmas: the same operations in the same order, only grouped differently), and
  `tile_apply` reads it at row `p`, unit `q` over the extended reals: the products are plain sums over the 1024
  features, a change of float format is the identity, the broadcast bias row is its entry at `q`.
-/
import proofs.«412437_j1580547967642_3_alg».proof.Proof.Gen.KernelIdeal.Skeleton
import proofs.«412437_j1580547967642_3_alg».proof.Proof.GruSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

variable {F : FTy → Type} [FloatOps F]

/-- The chain of one sub-tile, from the seven resident operands and the sub-tile's rows of `x` and of `h`. -/
def tile (W1 W2 : Vec F S1024x2048 .bf16) (W3 W4 : Vec F S1024x1024 .bf16) (B1 : Vec F S1x2048 .f32)
    (B2 B3 : Vec F S1x1024 .f32) (X H : Vec F S256x1024 .f32) : FVec F S256x1024 .f32 :=
  k0_pay15 (k0_pay2 W1) (k0_pay3 W2) (k0_pay4 W3) (k0_pay5 W4) (k0_pay6 B1) (k0_pay7 B2) (k0_pay8 B3) X H

/-- The first sub-tile's store. -/
theorem first_eq_tile (W1 W2 : Vec F S1024x2048 .bf16) (W3 W4 : Vec F S1024x1024 .bf16) (B1 : Vec F S1x2048 .f32)
    (B2 B3 : Vec F S1x1024 .f32) (X H : Vec F S256x1024 .f32) :
    k0_pay14 H (k0_pay12 W1 W2 B1 X H) (k0_pay13 W1 W2 W3 W4 B1 B2 B3 X H) (Scalar.ofBits .f32 0x3F800000#32)
      = tile W1 W2 W3 W4 B1 B2 B3 X H := rfl

/-- The third sub-tile's store. -/
theorem third_eq_tile (W1 W2 : Vec F S1024x2048 .bf16) (W3 W4 : Vec F S1024x1024 .bf16) (B1 : Vec F S1x2048 .f32)
    (B2 B3 : Vec F S1x1024 .f32) (X H : Vec F S256x1024 .f32) :
    k0_pay19 (k0_pay3 W2) (k0_pay4 W3) (k0_pay5 W4) (k0_pay6 B1) (k0_pay7 B2) (k0_pay8 B3) H (k0_pay16 X) (k0_pay17 H)
        (k0_pay18 (k0_pay2 W1) X) (constant S256x2048 .f32 0x00000000#32)
      = tile W1 W2 W3 W4 B1 B2 B3 X H := rfl

/-- The fourth sub-tile's store. -/
theorem fourth_eq_tile (W1 W2 : Vec F S1024x2048 .bf16) (W3 W4 : Vec F S1024x1024 .bf16) (B1 : Vec F S1x2048 .f32)
    (B2 B3 : Vec F S1x1024 .f32) (X H : Vec F S256x1024 .f32) :
    k0_pay1 H (k0_pay23 (k0_pay2 W1) (k0_pay3 W2) (k0_pay6 B1) X H)
        (k0_pay24 (k0_pay2 W1) (k0_pay3 W2) (k0_pay4 W3) (k0_pay5 W4) (k0_pay6 B1) (k0_pay7 B2) (k0_pay8 B3) X H)
        (Scalar.ofBits .f32 0x3F800000#32)
      = tile W1 W2 W3 W4 B1 B2 B3 X H := rfl

/-! ## The sub-tile read at an index, over the extended reals -/

/-- Column `o + q` of the 2048 reset-and-update columns: unit `q` of the half that starts at `o`. -/
abbrev col (o : Nat) (ho : o + 1024 ≤ 2048) (q : Fin 1024) : Fin 2048 := ⟨o + q.val, by have := q.isLt; omega⟩

theorem lhs_2048_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_2048_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_2048_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_2048_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- A product of 256 rows with a 1024 × 2048 matrix into a zero accumulator, at row `p` and column `c`: the sum over the
    1024 features. -/
theorem mm_2048_apply (A : FVec Ideal S256x1024 .bf16) (W : FVec Ideal S1024x2048 .bf16) (p : Fin 256) (c : Fin 2048) :
    matmul dot_S256x1024_S1024x2048_S256x2048_1_0_0_1_n_n none A W (constant S256x2048 .f32 0x00000000#32) (ix2 p c)
      = ∑ k : Fin 1024, A (ix2 p k) * W (ix2 k c) := by
  show FloatOps.matmul dot_S256x1024_S1024x2048_S256x2048_1_0_0_1_n_n none A W (constant S256x2048 .f32 0x00000000#32) (ix2 p c) = _
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p c) ((ValueIdx.contrEquiv1 dot_S256x1024_S1024x2048_S256x2048_1_0_0_1_n_n 1024 rfl rfl).symm k) = ix2 p k := funext fun a => Fin.ext (by
    match a with
    | ⟨0, _⟩ => exact lhs_2048_0 _ _
    | ⟨1, _⟩ => exact (lhs_2048_1 _ _).trans hk)
  have er : dot_S256x1024_S1024x2048_S256x2048_1_0_0_1_n_n.rhsIdx (ix2 p c) ((ValueIdx.contrEquiv1 dot_S256x1024_S1024x2048_S256x2048_1_0_0_1_n_n 1024 rfl rfl).symm k) = ix2 k c := funext fun a => Fin.ext (by
    match a with
    | ⟨0, _⟩ => exact (rhs_2048_0 _ _).trans hk
    | ⟨1, _⟩ => exact rhs_2048_1 _ _)
  rw [el, er]

theorem lhs_1024_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_1024_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_1024_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_1024_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A product of 256 rows with a 1024 × 1024 matrix into a zero accumulator, at row `p` and column `c`: the sum over the
    1024 features. -/
theorem mm_1024_apply (A : FVec Ideal S256x1024 .bf16) (W : FVec Ideal S1024x1024 .bf16) (p : Fin 256) (c : Fin 1024) :
    matmul dot_S256x1024_S1024x1024_S256x1024_1_0_0_1_n_n none A W (constant S256x1024 .f32 0x00000000#32) (ix2 p c)
      = ∑ k : Fin 1024, A (ix2 p k) * W (ix2 k c) := by
  show FloatOps.matmul dot_S256x1024_S1024x1024_S256x1024_1_0_0_1_n_n none A W (constant S256x1024 .f32 0x00000000#32) (ix2 p c) = _
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p c) ((ValueIdx.contrEquiv1 dot_S256x1024_S1024x1024_S256x1024_1_0_0_1_n_n 1024 rfl rfl).symm k) = ix2 p k := funext fun a => Fin.ext (by
    match a with
    | ⟨0, _⟩ => exact lhs_1024_0 _ _
    | ⟨1, _⟩ => exact (lhs_1024_1 _ _).trans hk)
  have er : dot_S256x1024_S1024x1024_S256x1024_1_0_0_1_n_n.rhsIdx (ix2 p c) ((ValueIdx.contrEquiv1 dot_S256x1024_S1024x1024_S256x1024_1_0_0_1_n_n 1024 rfl rfl).symm k) = ix2 k c := funext fun a => Fin.ext (by
    match a with
    | ⟨0, _⟩ => exact (rhs_1024_0 _ _).trans hk
    | ⟨1, _⟩ => exact rhs_1024_1 _ _)
  rw [el, er]

/-- The summed reset and update pre-activations of a sub-tile, all 2048 columns. -/
def rzPre (W1 W2 : Vec F S1024x2048 .bf16) (B1 : Vec F S1x2048 .f32) (X H : Vec F S256x1024 .f32) : FVec F S256x2048 .f32 :=
  k0_pay11 W1 W2 B1 X H

/-- The input part of the candidate's pre-activation. -/
def nIn (W3 : Vec F S1024x1024 .bf16) (B2 : Vec F S1x1024 .f32) (X : Vec F S256x1024 .f32) : FVec F S256x1024 .f32 :=
  addf (matmul dot_S256x1024_S1024x1024_S256x1024_1_0_0_1_n_n none (k0_pay9 X) (k0_pay4 W3) (constant S256x1024 .f32 0x00000000#32))
    (broadcastTo S256x1024 (k0_pay7 B2) broadcasts_S1x1024_S256x1024)

/-- The hidden part of the candidate's pre-activation. -/
def nHid (W4 : Vec F S1024x1024 .bf16) (B3 : Vec F S1x1024 .f32) (H : Vec F S256x1024 .f32) : FVec F S256x1024 .f32 :=
  addf (matmul dot_S256x1024_S1024x1024_S256x1024_1_0_0_1_n_n none (k0_pay10 H) (k0_pay5 W4) (constant S256x1024 .f32 0x00000000#32))
    (broadcastTo S256x1024 (k0_pay8 B3) broadcasts_S1x1024_S256x1024)

/-- The sub-tile is the gates and the blend over those three pre-activation arrays. -/
theorem tile_eq (W1 W2 : Vec F S1024x2048 .bf16) (W3 W4 : Vec F S1024x1024 .bf16) (B1 : Vec F S1x2048 .f32)
    (B2 B3 : Vec F S1x1024 .f32) (X H : Vec F S256x1024 .f32) :
    tile W1 W2 W3 W4 B1 B2 B3 X H =
      addf (mulf (subf (broadcast S256x1024 (Scalar.ofBits .f32 0x3F800000#32))
            (logistic (extractStridedSlice S256x1024 ![0, 1024] (rzPre W1 W2 B1 X H) slices_S256x2048_o0_1024_S256x1024)))
          (tanh (addf (nIn W3 B2 X)
            (mulf (logistic (extractStridedSlice S256x1024 ![0, 0] (rzPre W1 W2 B1 X H) slices_S256x2048_o0_0_S256x1024)) (nHid W4 B3 H)))))
        (mulf (logistic (extractStridedSlice S256x1024 ![0, 1024] (rzPre W1 W2 B1 X H) slices_S256x2048_o0_1024_S256x1024)) H) := rfl

theorem rzPre_apply (W1 W2 : FVec Ideal S1024x2048 .bf16) (B1 : FVec Ideal S1x2048 .f32) (X H : FVec Ideal S256x1024 .f32)
    (p : Fin 256) (c : Fin 2048) :
    rzPre (F := Ideal) W1 W2 B1 X H (ix2 p c)
      = (∑ k : Fin 1024, X (ix2 p k) * W1 (ix2 k c) + ∑ k : Fin 1024, H (ix2 p k) * W2 (ix2 k c)) + B1 (ix2 (0 : Fin 1) c) := by
  unfold rzPre k0_pay11 k0_pay9 k0_pay10 k0_pay2 k0_pay3 k0_pay6
  rw [shapeCast_self, shapeCast_self, shapeCast_self]
  show matmul _ none _ W1 _ (ix2 p c) + matmul _ none _ W2 _ (ix2 p c) + broadcastTo S256x2048 B1 _ (ix2 p c) = _
  rw [mm_2048_apply, mm_2048_apply, broadcastTo_1b_ab_apply]
  rfl

theorem nIn_apply (W3 : FVec Ideal S1024x1024 .bf16) (B2 : FVec Ideal S1x1024 .f32) (X : FVec Ideal S256x1024 .f32)
    (p : Fin 256) (q : Fin 1024) :
    nIn (F := Ideal) W3 B2 X (ix2 p q) = ∑ k : Fin 1024, X (ix2 p k) * W3 (ix2 k q) + B2 (ix2 (0 : Fin 1) q) := by
  unfold nIn k0_pay9 k0_pay4 k0_pay7
  rw [shapeCast_self, shapeCast_self]
  show matmul _ none _ W3 _ (ix2 p q) + broadcastTo S256x1024 B2 _ (ix2 p q) = _
  rw [mm_1024_apply, broadcastTo_1b_ab_apply]
  rfl

theorem nHid_apply (W4 : FVec Ideal S1024x1024 .bf16) (B3 : FVec Ideal S1x1024 .f32) (H : FVec Ideal S256x1024 .f32)
    (p : Fin 256) (q : Fin 1024) :
    nHid (F := Ideal) W4 B3 H (ix2 p q) = ∑ k : Fin 1024, H (ix2 p k) * W4 (ix2 k q) + B3 (ix2 (0 : Fin 1) q) := by
  unfold nHid k0_pay10 k0_pay5 k0_pay8
  rw [shapeCast_self, shapeCast_self]
  show matmul _ none _ W4 _ (ix2 p q) + broadcastTo S256x1024 B3 _ (ix2 p q) = _
  rw [mm_1024_apply, broadcastTo_1b_ab_apply]
  rfl

/-- The gates and the blend at an index, over any three pre-activation arrays. -/
theorem blend_apply (RZ : FVec Ideal S256x2048 .f32) (NI NH Hp : FVec Ideal S256x1024 .f32) (p : Fin 256) (q : Fin 1024) :
    (addf (mulf (subf (broadcast S256x1024 (Scalar.ofBits (F := Ideal) .f32 0x3F800000#32))
            (logistic (extractStridedSlice S256x1024 ![0, 1024] RZ slices_S256x2048_o0_1024_S256x1024)))
          (tanh (addf NI (mulf (logistic (extractStridedSlice S256x1024 ![0, 0] RZ slices_S256x2048_o0_0_S256x1024)) NH))))
        (mulf (logistic (extractStridedSlice S256x1024 ![0, 1024] RZ slices_S256x2048_o0_1024_S256x1024)) Hp)) (ix2 p q)
      = Cert.Gru.unit (RZ (ix2 p (col 0 (by omega) q))) (RZ (ix2 p (col 1024 (by omega) q))) (NI (ix2 p q)) (NH (ix2 p q)) (Hp (ix2 p q)) := by
  have e0 := slice2_axis1_apply 0 RZ slices_S256x2048_o0_0_S256x1024 p q (col 0 (by omega) q) rfl
  have e1 := slice2_axis1_apply 1024 RZ slices_S256x2048_o0_1024_S256x1024 p q (col 1024 (by omega) q) rfl
  show (Ideal.ofBits .f32 0x3F800000#32
          - Ideal.logistic (extractStridedSlice S256x1024 ![0, 1024] RZ slices_S256x2048_o0_1024_S256x1024 (ix2 p q)))
        * Ideal.tanh (NI (ix2 p q)
          + Ideal.logistic (extractStridedSlice S256x1024 ![0, 0] RZ slices_S256x2048_o0_0_S256x1024 (ix2 p q)) * NH (ix2 p q))
      + Ideal.logistic (extractStridedSlice S256x1024 ![0, 1024] RZ slices_S256x2048_o0_1024_S256x1024 (ix2 p q)) * Hp (ix2 p q) = _
  rw [e0, e1]
  rfl

/-- One sub-tile at row `p`, unit `q`: the GRU update of that unit from the sums over the 1024 features. -/
theorem tile_apply (W1 W2 : FVec Ideal S1024x2048 .bf16) (W3 W4 : FVec Ideal S1024x1024 .bf16) (B1 : FVec Ideal S1x2048 .f32)
    (B2 B3 : FVec Ideal S1x1024 .f32) (X H : FVec Ideal S256x1024 .f32) (p : Fin 256) (q : Fin 1024) :
    tile (F := Ideal) W1 W2 W3 W4 B1 B2 B3 X H (ix2 p q) =
      Cert.Gru.unit
        ((∑ k : Fin 1024, X (ix2 p k) * W1 (ix2 k (col 0 (by omega) q)) + ∑ k : Fin 1024, H (ix2 p k) * W2 (ix2 k (col 0 (by omega) q)))
          + B1 (ix2 (0 : Fin 1) (col 0 (by omega) q)))
        ((∑ k : Fin 1024, X (ix2 p k) * W1 (ix2 k (col 1024 (by omega) q)) + ∑ k : Fin 1024, H (ix2 p k) * W2 (ix2 k (col 1024 (by omega) q)))
          + B1 (ix2 (0 : Fin 1) (col 1024 (by omega) q)))
        (∑ k : Fin 1024, X (ix2 p k) * W3 (ix2 k q) + B2 (ix2 (0 : Fin 1) q))
        (∑ k : Fin 1024, H (ix2 p k) * W4 (ix2 k q) + B3 (ix2 (0 : Fin 1) q))
        (H (ix2 p q)) := by
  rw [tile_eq]
  refine (blend_apply (rzPre W1 W2 B1 X H) (nIn W3 B2 X) (nHid W4 B3 H) H p q).trans ?_
  rw [rzPre_apply, rzPre_apply, nIn_apply, nHid_apply]

end Cert.KernelIdeal.Tile

end
-- ==== Proof.Block.lean ====
/-
  What the body leaves in the output block, as ONE function of the nine input blocks.

  The four stores write rows 0–255, 256–511, 512–767 and 768–1023 of the 1024 × 1024 output block; each writes the
  sub-tile chain of ITS rows of the `x` and `h` blocks against the same resident weights and biases. So row `a`, unit
  `q` of the block is the GRU update `rowFn … a q` of row `a` of the two blocks, whichever store wrote it: the four
  payloads are restrictions of one function of the block index, and the stores tile the block.
-/
import proofs.«412437_j1580547967642_3_alg».proof.Proof.Gen.KernelIdeal.Frame
import proofs.«412437_j1580547967642_3_alg».proof.Proof.Tile

set_option maxRecDepth 16384

noncomputable section

namespace Cert.KernelIdeal.Block

open Cert.KernelIdeal Cert.KernelIdeal.Gen Cert.KernelIdeal.Tile Idealize.ShloMosaic Idealize.ShloMosaic.ValueIdx

variable (x0 x1 : Vec Ideal S1024x1024 .f32) (x2 x3 : Vec Ideal S1024x2048 .bf16) (x4 x5 : Vec Ideal S1024x1024 .bf16)
  (x6 : Vec Ideal S1x2048 .f32) (x7 x8 : Vec Ideal S1x1024 .f32)

/-- Row `a`, unit `q` of the output block: the GRU update from row `a` of the `x` and `h` blocks. -/
def rowFn (a : Fin 1024) (q : Fin 1024) : EReal :=
  Cert.Gru.unit
    ((∑ k : Fin 1024, x0 (ix2 a k) * x2 (ix2 k (col 0 (by omega) q)) + ∑ k : Fin 1024, x1 (ix2 a k) * x3 (ix2 k (col 0 (by omega) q)))
      + x6 (ix2 (0 : Fin 1) (col 0 (by omega) q)))
    ((∑ k : Fin 1024, x0 (ix2 a k) * x2 (ix2 k (col 1024 (by omega) q)) + ∑ k : Fin 1024, x1 (ix2 a k) * x3 (ix2 k (col 1024 (by omega) q)))
      + x6 (ix2 (0 : Fin 1) (col 1024 (by omega) q)))
    (∑ k : Fin 1024, x0 (ix2 a k) * x4 (ix2 k q) + x7 (ix2 (0 : Fin 1) q))
    (∑ k : Fin 1024, x1 (ix2 a k) * x5 (ix2 k q) + x8 (ix2 (0 : Fin 1) q))
    (x1 (ix2 a q))

/-- The output block as one function of its index. -/
def blockFn : S1024x1024.Idx → EReal := fun y => rowFn x0 x1 x2 x3 x4 x5 x6 x7 x8 (y 0) (y 1)

theorem hz2 : (![0, 0] : Fin 2 → Nat) = fun _ => 0 := funext fun a => by fin_cases a <;> rfl

/-- Rows `o … o + 255` of a 1024-row block, read at local row `p`: row `o + p` of the block. -/
theorem ld_rows (X : Vec Ideal S1024x1024 .f32) (o : Nat) (inb : ∀ a, (![o, 0] : Fin 2 → Nat) a + S256x1024.size a ≤ S1024x1024.size a)
    (p : Fin 256) (k : Fin 1024) (a : Fin 1024) (ha : a.val = o + p.val) :
    View.ld X (Rect.unit (s := S1024x1024) ![o, 0] S256x1024.size inb) (ix2 p k) = X (ix2 a k) := by
  show X ((Rect.unit (s := S1024x1024) ![o, 0] S256x1024.size inb).idx (ix2 p k)) = X (ix2 a k)
  refine congrArg X (funext fun ax => Fin.ext ?_)
  match ax with
  | ⟨0, _⟩ => show o + 1 * p.val = a.val; omega
  | ⟨1, _⟩ => show 0 + 1 * k.val = k.val; omega

/-- The sub-tile chain of rows `o … o + 255` is the block function on those rows. -/
theorem tile_rows (o : Nat) (inb : ∀ a, (![o, 0] : Fin 2 → Nat) a + S256x1024.size a ≤ S1024x1024.size a)
    (x : (Rect.unit (s := S1024x1024) ![o, 0] S256x1024.size inb).shape.Idx) :
    tile (F := Ideal) (View.ld x2 r0_0) (View.ld x3 r0_0) (View.ld x4 r0_1) (View.ld x5 r0_1) (View.ld x6 r0_2) (View.ld x7 r0_3) (View.ld x8 r0_3)
        (View.ld x0 (Rect.unit (s := S1024x1024) ![o, 0] S256x1024.size inb)) (View.ld x1 (Rect.unit (s := S1024x1024) ![o, 0] S256x1024.size inb)) x
      = blockFn x0 x1 x2 x3 x4 x5 x6 x7 x8 ((Rect.unit (s := S1024x1024) ![o, 0] S256x1024.size inb).emb x) := by
  obtain ⟨p, q, rfl⟩ : ∃ (p : Fin 256) (q : Fin 1024), x = ix2 p q := ⟨x 0, x 1, eq_ix2 x⟩
  have hp : p.val < 256 := p.isLt
  have ho : o + 256 ≤ 1024 := inb 0
  rw [show View.ld x2 r0_0 = x2 from View.ld_unit_zero (S := S1024x2048) hz2 _ x2,
    show View.ld x3 r0_0 = x3 from View.ld_unit_zero (S := S1024x2048) hz2 _ x3,
    show View.ld x4 r0_1 = x4 from View.ld_unit_zero (S := S1024x1024) hz2 _ x4,
    show View.ld x5 r0_1 = x5 from View.ld_unit_zero (S := S1024x1024) hz2 _ x5,
    show View.ld x6 r0_2 = x6 from View.ld_unit_zero (S := S1x2048) hz2 _ x6,
    show View.ld x7 r0_3 = x7 from View.ld_unit_zero (S := S1x1024) hz2 _ x7,
    show View.ld x8 r0_3 = x8 from View.ld_unit_zero (S := S1x1024) hz2 _ x8,
    tile_apply]
  have e0 : (Rect.unit (s := S1024x1024) ![o, 0] S256x1024.size inb).emb (ix2 p q) 0 = (⟨o + p.val, by omega⟩ : Fin 1024) :=
    Fin.ext (by show o + 1 * p.val = o + p.val; omega)
  have e1 : (Rect.unit (s := S1024x1024) ![o, 0] S256x1024.size inb).emb (ix2 p q) 1 = q :=
    Fin.ext (by show 0 + 1 * q.val = q.val; omega)
  unfold blockFn
  rw [e0, e1]
  unfold rowFn
  simp only [ld_rows x0 o inb p _ ⟨o + p.val, by omega⟩ rfl, ld_rows x1 o inb p _ ⟨o + p.val, by omega⟩ rfl]

/-- The body's stores, read back, are the block function: each store is the sub-tile chain of its own rows, and the
    four tile the block. -/
theorem out_eq_blockFn : out0_9 (F := Ideal) x0 x1 x2 x3 x4 x5 x6 x7 x8 = blockFn x0 x1 x2 x3 x4 x5 x6 x7 x8 := by
  funext y
  unfold out0_9
  rw [fourth_eq_tile, third_eq_tile, first_eq_tile]
  refine View.canon_apply_of_pieces (Val := Elt Ideal) (blockFn x0 x1 x2 x3 x4 x5 x6 x7 x8) _ ?_ y (cover0_9 _ _ _ _ y)
  intro pc hpc x
  simp only [List.mem_cons, List.not_mem_nil, or_false] at hpc
  rcases hpc with rfl | rfl | rfl | rfl
  · exact tile_rows x0 x1 x2 x3 x4 x5 x6 x7 x8 768 _ x
  · exact tile_rows x0 x1 x2 x3 x4 x5 x6 x7 x8 512 _ x
  · exact tile_rows x0 x1 x2 x3 x4 x5 x6 x7 x8 256 _ x
  · exact tile_rows x0 x1 x2 x3 x4 x5 x6 x7 x8 0 _ x

end Cert.KernelIdeal.Block

end
-- ==== Proof.HostArrays.lean ====
/-
  The seven arrays the host prepares before the kernel is launched, each read at an index as an entry of an argument.

  The host casts both weight matrices to bf16 (the identity over the extended reals), cuts the first 2048 rows (reset
  and update blocks) and the last 1024 rows (candidate block) of each and transposes the cuts, so that entry (k, r)
  of a prepared matrix is entry (r, k), resp. (2048 + r, k), of the weight matrix; it adds the first 2048 entries of
  the two biases into one row, and lays the last 1024 entries of each bias out as a row.
-/
import proofs.«412437_j1580547967642_3_alg».proof.Proof.Gen.KernelIdeal.Frame
import proofs.«412437_j1580547967642_3_alg».proof.Proof.GruSpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostArrays

open Cert.KernelIdeal Cert.KernelIdeal.Gen Idealize.ShloMosaic Idealize.ShloMosaic.TcCoe Idealize.SL.Sem Idealize.ShloMosaic.StableHlo
open Idealize.ShloMosaic.ValueIdx Cert.Gru

variable (m : (ℓ : Loc nD τ sig) → Buf (Elt Ideal) ℓ)

/-- Row `r` of the first 2048 rows of a stacked weight matrix or bias, as a row of all 3072. -/
abbrev lowRow (r : Fin 2048) : Fin 3072 := ⟨r.val, by have := r.isLt; omega⟩

/-- The reset-and-update input weights, transposed: entry (k, r) is `weight_ih[r, k]`. -/
theorem wrz_ih_apply (c : Dev nD) (k : Fin 1024) (r : Fin 2048) :
    (V m c main_v3 : S1024x2048.Idx → EReal) (ix2 k r) = m ((c : Thread nD τ).loc main_arg2) (ix2 (lowRow r) k) := by
  have e : (V m c main_v3 : S1024x2048.Idx → EReal)
      = transpose S1024x2048 [1, 0] (extractStridedSlice S2048x1024 ![0, 0]
          (truncf (F := Ideal) .bf16 (m ((c : Thread nD τ).loc main_arg2)) bitsLt_bf16_f32) slices_S3072x1024_S2048x1024_0_0)
          transposes_S2048x1024_S1024x2048_1_0 := by
    dsimp only [Gen.V, Gen.hostOps0]; after_results <;> rfl
  rw [e, transpose_ix2_apply, slice2_axis0_apply 0 _ _ r k (lowRow r) (Nat.zero_add _).symm]
  rfl

/-- The reset-and-update hidden weights, transposed: entry (k, r) is `weight_hh[r, k]`. -/
theorem wrz_hh_apply (c : Dev nD) (k : Fin 1024) (r : Fin 2048) :
    (V m c main_v5 : S1024x2048.Idx → EReal) (ix2 k r) = m ((c : Thread nD τ).loc main_arg3) (ix2 (lowRow r) k) := by
  have e : (V m c main_v5 : S1024x2048.Idx → EReal)
      = transpose S1024x2048 [1, 0] (extractStridedSlice S2048x1024 ![0, 0]
          (truncf (F := Ideal) .bf16 (m ((c : Thread nD τ).loc main_arg3)) bitsLt_bf16_f32) slices_S3072x1024_S2048x1024_0_0)
          transposes_S2048x1024_S1024x2048_1_0 := by
    dsimp only [Gen.V, Gen.hostOps0]; after_results <;> rfl
  rw [e, transpose_ix2_apply, slice2_axis0_apply 0 _ _ r k (lowRow r) (Nat.zero_add _).symm]
  rfl

/-- The candidate input weights, transposed: entry (k, q) is `weight_ih[2048 + q, k]`. -/
theorem wn_ih_apply (c : Dev nD) (k : Fin 1024) (q : Fin 1024) :
    (V m c main_v7 : S1024x1024.Idx → EReal) (ix2 k q) = m ((c : Thread nD τ).loc main_arg2) (ix2 (gateRow 2048 (by omega) q) k) := by
  have e : (V m c main_v7 : S1024x1024.Idx → EReal)
      = transpose S1024x1024 [1, 0] (extractStridedSlice S1024x1024 ![2048, 0]
          (truncf (F := Ideal) .bf16 (m ((c : Thread nD τ).loc main_arg2)) bitsLt_bf16_f32) slices_S3072x1024_S1024x1024_2048_0)
          transposes_S1024x1024_S1024x1024_1_0 := by
    dsimp only [Gen.V, Gen.hostOps0]; after_results <;> rfl
  rw [e, transpose_ix2_apply, slice2_axis0_apply 2048 _ _ q k (gateRow 2048 (by omega) q) rfl]
  rfl

/-- The candidate hidden weights, transposed: entry (k, q) is `weight_hh[2048 + q, k]`. -/
theorem wn_hh_apply (c : Dev nD) (k : Fin 1024) (q : Fin 1024) :
    (V m c main_v9 : S1024x1024.Idx → EReal) (ix2 k q) = m ((c : Thread nD τ).loc main_arg3) (ix2 (gateRow 2048 (by omega) q) k) := by
  have e : (V m c main_v9 : S1024x1024.Idx → EReal)
      = transpose S1024x1024 [1, 0] (extractStridedSlice S1024x1024 ![2048, 0]
          (truncf (F := Ideal) .bf16 (m ((c : Thread nD τ).loc main_arg3)) bitsLt_bf16_f32) slices_S3072x1024_S1024x1024_2048_0)
          transposes_S1024x1024_S1024x1024_1_0 := by
    dsimp only [Gen.V, Gen.hostOps0]; after_results <;> rfl
  rw [e, transpose_ix2_apply, slice2_axis0_apply 2048 _ _ q k (gateRow 2048 (by omega) q) rfl]
  rfl

/-- A one-axis array cut from `o` reads, at `j`, the source at `o + j`. -/
theorem slice1_apply {n mm : Nat} (o : Nat) (X : (⟨1, ![n]⟩ : Shape).Idx → EReal)
    (h : (⟨1, ![n]⟩ : Shape).Slices ![o] ⟨1, ![mm]⟩) (j : Fin mm) (k : Fin n) (hk : k.val = o + j.val) :
    extractStridedSlice ⟨1, ![mm]⟩ ![o] X h (ix1 j) = X (ix1 k) :=
  extractStridedSlice_apply _ _ _ _ _ (fun ax => by match ax with | ⟨0, _⟩ => exact hk)

/-- The two bias arguments as launched, as arrays of extended reals. -/
abbrev biasIh (c : Dev nD) : Sb.Idx → EReal := m ((c : Thread nD τ).loc main_arg4)
abbrev biasHh (c : Dev nD) : Sb.Idx → EReal := m ((c : Thread nD τ).loc main_arg5)

/-- The pre-summed reset-and-update bias row: entry `r` is `bias_ih[r] + bias_hh[r]`. -/
theorem brz_apply (c : Dev nD) (u : Fin 1) (r : Fin 2048) :
    (V m c main_v13 : S1x2048.Idx → EReal) (ix2 u r)
      = biasIh m c (ix1 (lowRow r)) + biasHh m c (ix1 (lowRow r)) := by
  have e : (V m c main_v13 : S1x2048.Idx → EReal)
      = shapeCast S1x2048 (addf (F := Ideal) (φ := .f32) (extractStridedSlice S2048 ![0] (m ((c : Thread nD τ).loc main_arg4)) slices_S3072_S2048_0)
          (extractStridedSlice S2048 ![0] (m ((c : Thread nD τ).loc main_arg5)) slices_S3072_S2048_0)) shapeCasts_S2048_S1x2048 := by
    dsimp only [Gen.V, Gen.hostOps0]; after_results <;> rfl
  rw [e, shapeCast_a_1a_apply, addf_apply, slice1_apply 0 _ _ r (lowRow r) (Nat.zero_add _).symm,
    slice1_apply 0 _ _ r (lowRow r) (Nat.zero_add _).symm]

/-- The candidate's input bias row: entry `q` is `bias_ih[2048 + q]`. -/
theorem bn_ih_apply (c : Dev nD) (u : Fin 1) (q : Fin 1024) :
    (V m c main_v15 : S1x1024.Idx → EReal) (ix2 u q) = m ((c : Thread nD τ).loc main_arg4) (ix1 (gateRow 2048 (by omega) q)) := by
  have e : (V m c main_v15 : S1x1024.Idx → EReal)
      = shapeCast S1x1024 (extractStridedSlice S1024 ![2048] (m ((c : Thread nD τ).loc main_arg4)) slices_S3072_S1024_2048) shapeCasts_S1024_S1x1024 := by
    dsimp only [Gen.V, Gen.hostOps0]; after_results <;> rfl
  rw [e, shapeCast_a_1a_apply, slice1_apply 2048 _ _ q (gateRow 2048 (by omega) q) rfl]

/-- The candidate's hidden bias row: entry `q` is `bias_hh[2048 + q]`. -/
theorem bn_hh_apply (c : Dev nD) (u : Fin 1) (q : Fin 1024) :
    (V m c main_v17 : S1x1024.Idx → EReal) (ix2 u q) = m ((c : Thread nD τ).loc main_arg5) (ix1 (gateRow 2048 (by omega) q)) := by
  have e : (V m c main_v17 : S1x1024.Idx → EReal)
      = shapeCast S1x1024 (extractStridedSlice S1024 ![2048] (m ((c : Thread nD τ).loc main_arg5)) slices_S3072_S1024_2048) shapeCasts_S1024_S1x1024 := by
    dsimp only [Gen.V, Gen.hostOps0]; after_results <;> rfl
  rw [e, shapeCast_a_1a_apply, slice1_apply 2048 _ _ q (gateRow 2048 (by omega) q) rfl]

end Cert.KernelIdeal.HostArrays

end
-- ==== Proof.Whole.lean ====
/-
  From blocks to the array: after the run the output array is the GRU step `Cert.Gru.G` of the six arguments.

  Grid point `t` works on rows 1024·t … 1024·t + 1023 of `x`, of `h` and of the output, and on the whole of each
  prepared weight and bias array. So what point `t` writes back — the block function of its nine blocks — is the
  restriction of `G` to those rows: row `a` of the `x` block is row 1024·t + a of `x`, the prepared arrays read back
  as entries of the weight matrices and biases, and the pre-summed bias row supplies the (bi + bh) grouping of `G`.
  The sixteen blocks tile the 16384 rows, so the array ends holding `G`.
-/
import proofs.«412437_j1580547967642_3_alg».proof.Proof.Gen.KernelIdeal.Value
import proofs.«412437_j1580547967642_3_alg».proof.Proof.Block
import proofs.«412437_j1580547967642_3_alg».proof.Proof.HostArrays

set_option maxRecDepth 16384

noncomputable section

namespace Cert.KernelIdeal.Whole

open Cert.KernelIdeal Cert.KernelIdeal.Gen Cert.KernelIdeal.Block Cert.KernelIdeal.HostArrays Cert.KernelIdeal.Tile
open Idealize.ShloMosaic Idealize.ShloMosaic.TcCoe Idealize.SL.Sem Idealize.ShloMosaic.ValueIdx Cert.Gru
open Idealize.ShloMosaic.Pipeline (Dat)

/-! ## A row of the block function is a row of `G` -/

/-- If the nine blocks read back as the right rows and entries of the six arguments, the block function at row `a`,
    unit `q` is `G` at the array index `i` that row and unit name. -/
theorem rowFn_eq_G (xA hA : SB.Idx → EReal) (wi wh : SW.Idx → EReal) (bi bh : Sb.Idx → EReal)
    (x0 x1 : Vec Ideal S1024x1024 .f32) (x2 x3 : Vec Ideal S1024x2048 .bf16) (x4 x5 : Vec Ideal S1024x1024 .bf16)
    (x6 : Vec Ideal S1x2048 .f32) (x7 x8 : Vec Ideal S1x1024 .f32) (a q : Fin 1024) (i : SB.Idx) (hq : i 1 = q)
    (h0 : ∀ k : Fin 1024, x0 (ix2 a k) = xA (ix2 (i 0) k)) (h1 : ∀ k : Fin 1024, x1 (ix2 a k) = hA (ix2 (i 0) k))
    (h2 : ∀ (k : Fin 1024) (r : Fin 2048), x2 (ix2 k r) = wi (ix2 (lowRow r) k))
    (h3 : ∀ (k : Fin 1024) (r : Fin 2048), x3 (ix2 k r) = wh (ix2 (lowRow r) k))
    (h4 : ∀ (k : Fin 1024) (r : Fin 1024), x4 (ix2 k r) = wi (ix2 (gateRow 2048 (by omega) r) k))
    (h5 : ∀ (k : Fin 1024) (r : Fin 1024), x5 (ix2 k r) = wh (ix2 (gateRow 2048 (by omega) r) k))
    (h6 : ∀ r : Fin 2048, x6 (ix2 (0 : Fin 1) r) = bi (ix1 (lowRow r)) + bh (ix1 (lowRow r)))
    (h7 : ∀ r : Fin 1024, x7 (ix2 (0 : Fin 1) r) = bi (ix1 (gateRow 2048 (by omega) r)))
    (h8 : ∀ r : Fin 1024, x8 (ix2 (0 : Fin 1) r) = bh (ix1 (gateRow 2048 (by omega) r))) :
    rowFn x0 x1 x2 x3 x4 x5 x6 x7 x8 a q = G xA hA wi wh bi bh i := by
  have hi : hA i = hA (ix2 (i 0) q) := congrArg hA (by rw [← hq]; exact eq_ix2 i)
  unfold rowFn G dotRow
  rw [hi]
  simp only [hq, h0, h1, h2, h3, h4, h5, h6, h7, h8]

variable (m : (ℓ : Loc nD τ sig) → Buf (Elt Ideal) ℓ) (ρ : Dev nD → PrngReg)

/-- The output array after the run: the GRU step of the six arguments as launched. -/
def result (c : Dev nD) : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The windows' blocks at a point -/

/-- The printed index maps, decided over the sixteen points: the `x` and `h` windows move with the output window along
    the rows; every other window stays on its one block. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 ∧ win0_9.index t (0 : Fin 2) ≤ 15 :=
  (by decide +kernel : ∀ t : Fin grid0.N, _)

/-- Every block of rows is some point's. -/
theorem idx_onto : ∀ q0 : Fin 16, ∃ t : Fin cfg0.N, win0_9.index t = ![q0.val, 0] :=
  (by decide +kernel : ∀ q0 : Fin 16, ∃ t : Fin grid0.N, win0_9.index t = ![q0.val, 0])

/-- WHAT POINT `t` WRITES BACK is block `t` of the GRU step of the arguments. -/
theorem flushed_eq (c : Dev nD) (t : Fin cfg0.N) :
    (dats m 0 c).flushed 9 t = ((cfg0.win 9).blk t).view.read (Elt Ideal) (result m c) := by
  rw [Cert.KernelIdeal.Value.flushed9, out_eq_blockFn]
  obtain ⟨e00, e01, e10, e11, e20, e21, e30, e31, e40, e41, e50, e51, e60, e61, e70, e71, e80, e81, e91, e90⟩ := idx_facts t
  funext y
  obtain ⟨a, q, rfl⟩ : ∃ (a : Fin 1024) (q : Fin 1024), y = ix2 a q := ⟨y 0, y 1, eq_ix2 y⟩
  show rowFn (iblk m c 0 t) (iblk m c 1 t) (iblk m c 2 t) (iblk m c 3 t) (iblk m c 4 t) (iblk m c 5 t) (iblk m c 6 t) (iblk m c 7 t) (iblk m c 8 t) a q
    = result m c (((cfg0.win 9).blk t).view.emb (ix2 a q))
  refine rowFn_eq_G _ _ _ _ _ _ _ _ _ _ _ _ _ _ _ a q _ ?_ ?_ ?_ ?_ ?_ ?_ ?_ ?_ ?_ ?_
  · exact Fin.ext (by show win0_9.index t (1 : Fin 2) * 1024 + 1 * q.val = q.val; omega)
  · intro k
    show V m c main_arg0 (((cfg0.win 0).blk t).view.emb (ix2 a k)) = m ((c : Thread nD τ).loc main_arg0) (ix2 ((((cfg0.win 9).blk t).view.emb (ix2 a q)) 0) k)
    rw [V_main_arg0]
    refine congrArg _ (funext fun ax => Fin.ext ?_)
    match ax with
    | ⟨0, _⟩ => show win0_0.index t (0 : Fin 2) * 1024 + 1 * a.val = win0_9.index t (0 : Fin 2) * 1024 + 1 * a.val; omega
    | ⟨1, _⟩ => show win0_0.index t (1 : Fin 2) * 1024 + 1 * k.val = k.val; omega
  · intro k
    show V m c main_arg1 (((cfg0.win 1).blk t).view.emb (ix2 a k)) = m ((c : Thread nD τ).loc main_arg1) (ix2 ((((cfg0.win 9).blk t).view.emb (ix2 a q)) 0) k)
    rw [V_main_arg1]
    refine congrArg _ (funext fun ax => Fin.ext ?_)
    match ax with
    | ⟨0, _⟩ => show win0_1.index t (0 : Fin 2) * 1024 + 1 * a.val = win0_9.index t (0 : Fin 2) * 1024 + 1 * a.val; omega
    | ⟨1, _⟩ => show win0_1.index t (1 : Fin 2) * 1024 + 1 * k.val = k.val; omega
  · intro k r
    show V m c main_v3 (((cfg0.win 2).blk t).view.emb (ix2 k r)) = _
    have e : ((cfg0.win 2).blk t).view.emb (ix2 k r) = ix2 k r := funext fun ax => Fin.ext (by
      match ax with
      | ⟨0, _⟩ => show win0_2.index t (0 : Fin 2) * 1024 + 1 * k.val = k.val; omega
      | ⟨1, _⟩ => show win0_2.index t (1 : Fin 2) * 2048 + 1 * r.val = r.val; omega)
    rw [e]; exact wrz_ih_apply m c k r
  · intro k r
    show V m c main_v5 (((cfg0.win 3).blk t).view.emb (ix2 k r)) = _
    have e : ((cfg0.win 3).blk t).view.emb (ix2 k r) = ix2 k r := funext fun ax => Fin.ext (by
      match ax with
      | ⟨0, _⟩ => show win0_3.index t (0 : Fin 2) * 1024 + 1 * k.val = k.val; omega
      | ⟨1, _⟩ => show win0_3.index t (1 : Fin 2) * 2048 + 1 * r.val = r.val; omega)
    rw [e]; exact wrz_hh_apply m c k r
  · intro k r
    show V m c main_v7 (((cfg0.win 4).blk t).view.emb (ix2 k r)) = _
    have e : ((cfg0.win 4).blk t).view.emb (ix2 k r) = ix2 k r := funext fun ax => Fin.ext (by
      match ax with
      | ⟨0, _⟩ => show win0_4.index t (0 : Fin 2) * 1024 + 1 * k.val = k.val; omega
      | ⟨1, _⟩ => show win0_4.index t (1 : Fin 2) * 1024 + 1 * r.val = r.val; omega)
    rw [e]; exact wn_ih_apply m c k r
  · intro k r
    show V m c main_v9 (((cfg0.win 5).blk t).view.emb (ix2 k r)) = _
    have e : ((cfg0.win 5).blk t).view.emb (ix2 k r) = ix2 k r := funext fun ax => Fin.ext (by
      match ax with
      | ⟨0, _⟩ => show win0_5.index t (0 : Fin 2) * 1024 + 1 * k.val = k.val; omega
      | ⟨1, _⟩ => show win0_5.index t (1 : Fin 2) * 1024 + 1 * r.val = r.val; omega)
    rw [e]; exact wn_hh_apply m c k r
  · intro r
    show V m c main_v13 (((cfg0.win 6).blk t).view.emb (ix2 (0 : Fin 1) r)) = _
    have e : ((cfg0.win 6).blk t).view.emb (ix2 (0 : Fin 1) r) = ix2 (0 : Fin 1) r := funext fun ax => Fin.ext (by
      match ax with
      | ⟨0, _⟩ => show win0_6.index t (0 : Fin 2) * 1 + 1 * 0 = 0; omega
      | ⟨1, _⟩ => show win0_6.index t (1 : Fin 2) * 2048 + 1 * r.val = r.val; omega)
    rw [e]; exact brz_apply m c 0 r
  · intro r
    show V m c main_v15 (((cfg0.win 7).blk t).view.emb (ix2 (0 : Fin 1) r)) = _
    have e : ((cfg0.win 7).blk t).view.emb (ix2 (0 : Fin 1) r) = ix2 (0 : Fin 1) r := funext fun ax => Fin.ext (by
      match ax with
      | ⟨0, _⟩ => show win0_7.index t (0 : Fin 2) * 1 + 1 * 0 = 0; omega
      | ⟨1, _⟩ => show win0_7.index t (1 : Fin 2) * 1024 + 1 * r.val = r.val; omega)
    rw [e]; exact bn_ih_apply m c 0 r
  · intro r
    show V m c main_v17 (((cfg0.win 8).blk t).view.emb (ix2 (0 : Fin 1) r)) = _
    have e : ((cfg0.win 8).blk t).view.emb (ix2 (0 : Fin 1) r) = ix2 (0 : Fin 1) r := funext fun ax => Fin.ext (by
      match ax with
      | ⟨0, _⟩ => show win0_8.index t (0 : Fin 2) * 1 + 1 * 0 = 0; omega
      | ⟨1, _⟩ => show win0_8.index t (1 : Fin 2) * 1024 + 1 * r.val = r.val; omega)
    rw [e]; exact bn_hh_apply m c 0 r

/-- An index of the array is in point `t`'s block iff each coordinate is in the block's range on its axis. -/
theorem mem_blk (t : Fin cfg0.N) (i : S16384x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v18).slice (win0_9.rect t)).set ↔ _
  rw [View.set_slice_whole, Rect.mem_set_unit]
  exact Iff.rfl

/-- Every row of the array is in the block of the point that owns it: row `r` belongs to point `r / 1024`. -/
theorem cover (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  obtain ⟨t, ht⟩ := idx_onto ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 1024 ≤ (i 1).val ∧ (i 1).val < win0_9.index t (1 : Fin 2) * 1024 + 1024; omega

/-- THE ARRAY after the run is the GRU step of the arguments. -/
theorem final (c : Dev nD) : (dats m 0 c).arrAt 9 cfg0.N = result m c :=
  (dats m 0 c).arrAt_eq_of_cover 9 (result m c) (fun t _ => flushed_eq m c t) cover

/-- The run, read: the output array at the GRU step of the arguments, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Whole

end
-- ==== Proof.RefStep.lean ====
/-
  The reference's result, stage by stage, is the GRU step `Cert.Gru.G'` of the six argument arrays.

  jnp computes the two full pre-activation matrices gi = x · wiᵀ + bi and gh = h · whᵀ + bh (16384 × 3072 each), cuts
  each into its reset, update and candidate thirds, adds the reset thirds and the update thirds, passes each through
  1 / (1 + e^(−a)), and blends. Read at batch row `p` and hidden unit `q`: an entry of gi is the inner product of row
  `p` of `x` with row `r` of `wi` plus `bi r`; the thirds are the rows `q`, `1024 + q`, `2048 + q`; the spelt-out
  quotient is the logistic function.
-/
import proofs.«412437_j1580547967642_3_alg».proof.Proof.Gen.ReferenceIdeal.Read
import proofs.«412437_j1580547967642_3_alg».proof.Proof.GruSpec

noncomputable section

namespace Cert.ReferenceIdeal.RefValue

open Cert.ReferenceIdeal Cert.ReferenceIdeal.Read Idealize.ShloMosaic Idealize.ShloMosaic.ValueIdx Cert.Gru

variable (x0 x1 : (⟨S16384x1024, .f32⟩ : BufTy).Contents (Elt Ideal)) (x2 x3 : (⟨S3072x1024, .f32⟩ : BufTy).Contents (Elt Ideal))
  (x4 x5 : (⟨S3072, .f32⟩ : BufTy).Contents (Elt Ideal))

/-- An entry of the input pre-activation matrix: a row of `x` against a row of `wi`, plus the bias. -/
theorem gi_apply (p : Fin 16384) (r : Fin 3072) :
    val_main_v4 (F := Ideal) x0 x2 x4 (ix2 p r) = dotRow x0 x2 p r + x4 (ix1 r) := by
  have el : ∀ k : Fin 1024, lidx_main_v1 (ix2 p r) k = ix2 p k := fun k => funext fun a => Fin.ext (by
    match a with | ⟨0, _⟩ => rfl | ⟨1, _⟩ => rfl)
  have er : ∀ k : Fin 1024, idx_main_v0 (ridx_main_v1 (ix2 p r) k) = ix2 r k := fun k => funext fun a => Fin.ext (by
    match a with | ⟨0, _⟩ => rfl | ⟨1, _⟩ => rfl)
  have eb : idx_main_v2 (idx_main_v3 (ix2 p r)) = ix1 r := funext fun a => Fin.ext (by
    match a with | ⟨0, _⟩ => rfl)
  rw [val_main_v4_apply, val_main_v1_apply, val_main_v3_apply, val_main_v2_apply, eb]
  simp only [val_main_v0_apply, el, er]
  rfl

/-- An entry of the hidden pre-activation matrix: a row of `h` against a row of `wh`, plus the bias. -/
theorem gh_apply (p : Fin 16384) (r : Fin 3072) :
    val_main_v9 (F := Ideal) x1 x3 x5 (ix2 p r) = dotRow x1 x3 p r + x5 (ix1 r) := by
  have el : ∀ k : Fin 1024, lidx_main_v6 (ix2 p r) k = ix2 p k := fun k => funext fun a => Fin.ext (by
    match a with | ⟨0, _⟩ => rfl | ⟨1, _⟩ => rfl)
  have er : ∀ k : Fin 1024, idx_main_v5 (ridx_main_v6 (ix2 p r) k) = ix2 r k := fun k => funext fun a => Fin.ext (by
    match a with | ⟨0, _⟩ => rfl | ⟨1, _⟩ => rfl)
  have eb : idx_main_v7 (idx_main_v8 (ix2 p r)) = ix1 r := funext fun a => Fin.ext (by
    match a with | ⟨0, _⟩ => rfl)
  rw [val_main_v9_apply, val_main_v6_apply, val_main_v8_apply, val_main_v7_apply, eb]
  simp only [val_main_v5_apply, el, er]
  rfl

/-! The six thirds: unit `q` of a third is row `o + q` of the stacked matrix, `o` the third's first row. -/

theorem gi_r (p : Fin 16384) (q : Fin 1024) :
    val_main_v10 (F := Ideal) x0 x2 x4 (ix2 p q) = val_main_v4 (F := Ideal) x0 x2 x4 (ix2 p (gateRow 0 (by omega) q)) := by
  rw [val_main_v10_apply]
  exact congrArg _ (funext fun a => Fin.ext (by match a with | ⟨0, _⟩ => rfl | ⟨1, _⟩ => exact (Nat.zero_add _).symm))
theorem gi_z (p : Fin 16384) (q : Fin 1024) :
    val_main_v11 (F := Ideal) x0 x2 x4 (ix2 p q) = val_main_v4 (F := Ideal) x0 x2 x4 (ix2 p (gateRow 1024 (by omega) q)) := by
  rw [val_main_v11_apply]
  exact congrArg _ (funext fun a => Fin.ext (by match a with | ⟨0, _⟩ => rfl | ⟨1, _⟩ => rfl))
theorem gi_n (p : Fin 16384) (q : Fin 1024) :
    val_main_v12 (F := Ideal) x0 x2 x4 (ix2 p q) = val_main_v4 (F := Ideal) x0 x2 x4 (ix2 p (gateRow 2048 (by omega) q)) := by
  rw [val_main_v12_apply]
  exact congrArg _ (funext fun a => Fin.ext (by match a with | ⟨0, _⟩ => rfl | ⟨1, _⟩ => rfl))
theorem gh_r (p : Fin 16384) (q : Fin 1024) :
    val_main_v13 (F := Ideal) x1 x3 x5 (ix2 p q) = val_main_v9 (F := Ideal) x1 x3 x5 (ix2 p (gateRow 0 (by omega) q)) := by
  rw [val_main_v13_apply]
  exact congrArg _ (funext fun a => Fin.ext (by match a with | ⟨0, _⟩ => rfl | ⟨1, _⟩ => exact (Nat.zero_add _).symm))
theorem gh_z (p : Fin 16384) (q : Fin 1024) :
    val_main_v14 (F := Ideal) x1 x3 x5 (ix2 p q) = val_main_v9 (F := Ideal) x1 x3 x5 (ix2 p (gateRow 1024 (by omega) q)) := by
  rw [val_main_v14_apply]
  exact congrArg _ (funext fun a => Fin.ext (by match a with | ⟨0, _⟩ => rfl | ⟨1, _⟩ => rfl))
theorem gh_n (p : Fin 16384) (q : Fin 1024) :
    val_main_v15 (F := Ideal) x1 x3 x5 (ix2 p q) = val_main_v9 (F := Ideal) x1 x3 x5 (ix2 p (gateRow 2048 (by omega) q)) := by
  rw [val_main_v15_apply]
  exact congrArg _ (funext fun a => Fin.ext (by match a with | ⟨0, _⟩ => rfl | ⟨1, _⟩ => rfl))

/-- The reset gate: the logistic function of the summed reset thirds. -/
theorem reset_apply (i : S16384x1024.Idx) :
    val_main_v22 (F := Ideal) x0 x1 x2 x3 x4 x5 i = Ideal.logistic (val_main_v16 (F := Ideal) x0 x1 x2 x3 x4 x5 i) := by
  rw [val_main_v22_apply, val_main_v21_apply, val_main_cst_0_apply, val_main_v20_apply, val_main_v19_apply, val_main_cst_apply,
    val_main_v18_apply, val_main_v17_apply]
  exact logistic_spelt _

/-- The update gate: the logistic function of the summed update thirds. -/
theorem update_apply (i : S16384x1024.Idx) :
    val_main_v29 (F := Ideal) x0 x1 x2 x3 x4 x5 i = Ideal.logistic (val_main_v23 (F := Ideal) x0 x1 x2 x3 x4 x5 i) := by
  rw [val_main_v29_apply, val_main_v28_apply, val_main_cst_2_apply, val_main_v27_apply, val_main_v26_apply, val_main_cst_1_apply,
    val_main_v25_apply, val_main_v24_apply]
  exact logistic_spelt _

/-- The reference's last stage is the GRU step, grouped as jnp groups it. -/
theorem result_eq : val_main_v37 (F := Ideal) x0 x1 x2 x3 x4 x5 = G' x0 x1 x2 x3 x4 x5 := by
  funext i
  obtain ⟨p, q, rfl⟩ : ∃ (p : Fin 16384) (q : Fin 1024), i = ix2 p q := ⟨i 0, i 1, eq_ix2 i⟩
  rw [val_main_v37_apply, val_main_v35_apply, val_main_v36_apply, val_main_v34_apply, val_main_v33_apply, val_main_cst_3_apply,
    val_main_v32_apply, val_main_v31_apply, val_main_v30_apply, update_apply, reset_apply, val_main_v23_apply, val_main_v16_apply,
    gi_r, gi_z, gi_n, gh_r, gh_z, gh_n, gi_apply, gi_apply, gi_apply, gh_apply, gh_apply, gh_apply]
  rfl

end Cert.ReferenceIdeal.RefValue

end
-- ==== Proof.lean ====
/-
  A single GRU step, h' = (1 − z) · n + z · h, computed two ways and shown equal over the extended reals.

  The kernel runs sixteen grid points of 1024 batch rows; at each it multiplies the rows of `x` and of `h` with the
  host-prepared (bf16-cast, gate-split, transposed) weights, adds the biases — the reset and update biases pre-summed
  on the host —, applies the logistic gates and the candidate's tanh, and blends. The reference computes the full
  pre-activation matrices x · wiᵀ + bi and h · whᵀ + bh, cuts them into gate thirds and blends, spelling the logistic
  function as 1 / (1 + e^(−a)). Over the extended reals a change of float format is the identity, both matrix products
  are the same sums over the 1024 features, and the only difference left is how the four summands of the reset and
  update pre-activations are grouped, (x·wi + h·wh) + (bi + bh) against (x·wi + bi) + (h·wh + bh): equal because
  addition there is a commutative monoid, infinities included, so the precondition is never opened.

  Modules: GruSpec (the step as a function, and the regrouping law), Tile (one 256-row sub-tile of the body read at an
  index), Block (the four stores are one function of the block index), HostArrays (the prepared arrays read back as
  entries of the arguments), Whole (the sixteen blocks tile the array: the kernel's run ends at the step), RefStep (the
  reference's stages are the step). The three frames are the generated ones; the idealization rewrote nothing.
-/
import proofs.«412437_j1580547967642_3_alg».proof.Defs
import proofs.«412437_j1580547967642_3_alg».proof.Proof.Gen.Kernel
import proofs.«412437_j1580547967642_3_alg».proof.Proof.Gen.Kernel.Skeleton
import proofs.«412437_j1580547967642_3_alg».proof.Proof.Gen.Kernel.Launch
import proofs.«412437_j1580547967642_3_alg».proof.Proof.Gen.Kernel.Points
import proofs.«412437_j1580547967642_3_alg».proof.Proof.Gen.Kernel.Frame
import proofs.«412437_j1580547967642_3_alg».proof.Proof.Gen.KernelIdeal
import proofs.«412437_j1580547967642_3_alg».proof.Proof.Gen.KernelIdeal.Skeleton
import proofs.«412437_j1580547967642_3_alg».proof.Proof.Gen.KernelIdeal.Launch
import proofs.«412437_j1580547967642_3_alg».proof.Proof.Gen.KernelIdeal.Points
import proofs.«412437_j1580547967642_3_alg».proof.Proof.Gen.KernelIdeal.Frame
import proofs.«412437_j1580547967642_3_alg».proof.Proof.Gen.ReferenceIdeal
import proofs.«412437_j1580547967642_3_alg».proof.Proof.Gen.Pre_finite_inputs
import proofs.«412437_j1580547967642_3_alg».proof.Proof.Gen.KernelIdeal.Value
import proofs.«412437_j1580547967642_3_alg».proof.Proof.Gen.ReferenceIdeal.Run
import proofs.«412437_j1580547967642_3_alg».proof.Proof.Gen.ReferenceIdeal.Read
import proofs.«412437_j1580547967642_3_alg».proof.Proof.Whole
import proofs.«412437_j1580547967642_3_alg».proof.Proof.RefStep
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the GRU step of arguments that agree: the kernel's in the grouping (x·wi + h·wh) + (bi + bh), the
    reference's in the grouping (x·wi + bi) + (h·wh + bh), one function by `Cert.Gru.G_eq_G'`. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq, ← Cert.Gru.G_eq_G',
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
